-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S64x64 : Shape := ⟨2, ![64, 64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S4096x64 .f32) (main_arg1 : FVec F S4096x4096 .f32) (main_arg2 : FVec F S64x64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S4096x64 : Shape := ⟨2, ![4096, 64]⟩
abbrev S4096x4096 : Shape := ⟨2, ![4096, 4096]⟩
abbrev S64x64 : Shape := ⟨2, ![64, 64]⟩
abbrev S512x4096 : Shape := ⟨2, ![512, 4096]⟩
abbrev S512x64 : Shape := ⟨2, ![512, 64]⟩

abbrev nBuf : Space → Nat
  | .hbm => 4
  | .vmem => 6
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S64x64, .f32⟩
  | .hbm, ⟨3, _⟩ => ⟨S4096x64, .f32⟩
  | .local _ .vmem, ⟨0, _⟩ => ⟨S4096x64, .f32⟩
  | .local _ .vmem, ⟨1, _⟩ => ⟨S64x64, .f32⟩
  | .local _ .vmem, ⟨2, _⟩ => ⟨S512x4096, .f32⟩
  | .local _ .vmem, ⟨3, _⟩ => ⟨S512x4096, .f32⟩
  | .local _ .vmem, ⟨4, _⟩ => ⟨S512x64, .f32⟩
  | .local _ .vmem, ⟨5, _⟩ => ⟨S512x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  inb_S4096x64_S4096x64_0_0 : ∀ a, (![0, 0] : Fin 2 → Nat) a + S4096x64.size a ≤ S4096x64.size a
  h_S4096x64 : 0 < S4096x64.numel
  inb_S64x64_S64x64_0_0 : ∀ a, (![0, 0] : Fin 2 → Nat) a + S64x64.size a ≤ S64x64.size a
  h_S64x64 : 0 < S64x64.numel
  inb_S512x64_S512x64_0_0 : ∀ a, (![0, 0] : Fin 2 → Nat) a + S512x64.size a ≤ S512x64.size a
  h_S512x64 : 0 < S512x64.numel
  dot_S512x4096_S4096x64_S512x64_1_0_0_1_n_n_wf : DotDims.WF S512x4096 S4096x64 S512x64 [1] [0] [0] [1] [] []
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S4096x64.size a
  hwx0_0 : ∀ i : grid0.Coords, EltTy.bits .f32 = 32 ∨ (Rect.block (s := S4096x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S4096x64.size a
  hwx0_3 : ∀ i : grid0.Coords, EltTy.bits .f32 = 32 ∨ (Rect.block (s := S4096x64) S512x64.size (cc0_transform_3 i) (hinb0_3 i)).WholeWords (EltTy.packing .f32)

variable [Facts₀]

def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_arg0) S4096x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x64 : Shape := ⟨2, ![4096, 64]⟩
abbrev S4096x4096 : Shape := ⟨2, ![4096, 4096]⟩
abbrev S64x64 : Shape := ⟨2, ![64, 64]⟩

abbrev nBuf : Space → Nat
  | .hbm => 5
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S64x64, .f32⟩
  | .hbm, ⟨3, _⟩ => ⟨S4096x64, .f32⟩
  | .hbm, ⟨4, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4096x64_S64x64_S4096x64_1_0_0_1_n_n_wf : DotDims.WF S4096x64 S64x64 S4096x64 [1] [0] [0] [1] [] []
  dot_S4096x4096_S4096x64_S4096x64_1_0_0_1_n_n_wf : DotDims.WF S4096x4096 S4096x64 S4096x64 [1] [0] [0] [1] [] []

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.FiniteInputs.lean ====
/-
  From the precondition to real entries.

  The precondition is the conjunction, over the three argument arrays, of `jnp.all(|x| < +∞)`. Read at the ideal
  instance an entry is an extended real, its absolute value is `max x (-x)`, and the pattern `0x7F800000` denotes
  `⊤`. An extended real with `max x (-x) < ⊤` is neither `⊤` nor `⊥` (for both of which the maximum is `⊤`),
  so it is the coercion of a real number. That is all the value claim needs of the precondition: with real entries
  the products and sums of the two programs stay real, where distributivity holds.
-/
import proofs.«142434_g35287451304912_cont_sun_m_1242_17_alg».proof.Pre_finite_inputs
import Idealize.ShloMosaic.PureOps.Ideal
import Idealize.ShloMosaic.PureOps.Ideal.Laws
import Idealize.ShloMosaic.Lib.ReduceAll
import Idealize.ShloMosaic.Lib.ValueIdx

namespace Cert.FiniteInputs

open Idealize.ShloMosaic Cert.Pre_finite_inputs

/-- The pattern of f32's positive infinity denotes `⊤`. -/
theorem ofBits_inf : Ideal.ofBits .f32 0x7F800000#32 = (⊤ : EReal) := by
  simp [Ideal.ofBits, Ideal.ieee]

/-- An extended real whose absolute value compares below `+∞` is a real number: at `⊤` and at `⊥` the absolute
    value `max x (-x)` is `⊤`, which is not below `⊤`. -/
theorem real_of_abs_lt (x : EReal)
    (h : Ideal.cmp .olt (max x (-x)) (Ideal.ofBits .f32 0x7F800000#32) = 1#1) : ∃ r : ℝ, x = r := by
  rw [ofBits_inf] at h
  induction x using EReal.rec with
  | bot => simp [Ideal.cmp] at h
  | coe r => exact ⟨r, rfl⟩
  | top => simp [Ideal.cmp] at h

/-- The scalar shape has one index. -/
instance : Subsingleton S_.Idx := ⟨fun a b => funext fun d => d.elim0⟩

/-- Under the precondition every entry of each of the three argument arrays is a real number: the conjunction is
    split, each `jnp.all` gives its comparison at every index, and each comparison is `|x| < +∞` at that entry. -/
theorem real_of_pre [Cert.Pre_finite_inputs.Facts] (x0 : FVec Ideal S4096x64 .f32) (x1 : FVec Ideal S4096x4096 .f32)
    (x2 : FVec Ideal S64x64 .f32) (h : Cert.Pre_finite_inputs.fn (F := Ideal) x0 x1 x2 = fun _ => 1#1) :
    (∀ i, ∃ r : ℝ, x0 i = r) ∧ (∀ i, ∃ r : ℝ, x1 i = r) ∧ (∀ i, ∃ r : ℝ, x2 i = r) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun i => real_of_abs_lt _ (Host.reduce_andi_all _ _ _ _ _ h0' i),
    fun i => real_of_abs_lt _ (Host.reduce_andi_all _ _ _ _ _ h1 i),
    fun i => real_of_abs_lt _ (Host.reduce_andi_all _ _ _ _ _ h2 i)⟩

end Cert.FiniteInputs
-- ==== Proof.AssocReal.lean ====
/-
  Associativity of a triple matrix product on the extended reals, for REAL entries.

  For a row `a : J → EReal`, a matrix `f : J → K → EReal` and a column `w : K → EReal`,

      ∑ k, (∑ j, a j * f j k) * w k  =  ∑ j, a j * (∑ k, f j k * w k).

  On the extended reals this needs distributivity of the product over a sum, which fails when an
  infinity meets a sum of mixed signs; so the law is stated for entries that are (coercions of) real
  numbers. Then both sides are the coercion of one real number: the products and sums stay real, and in
  ℝ the two sides are the double sum of `a j * f j k * w k` taken in the two orders.
-/
import Mathlib.Data.EReal.Operations
import Mathlib.Algebra.BigOperators.Ring.Finset
import Mathlib.Algebra.BigOperators.Group.Finset.Sigma

namespace Cert.AssocReal

/-- The coercion ℝ → EReal commutes with a finite sum (by induction on the index set: it commutes with `+`
    and sends `0` to `0`). -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The same law in ℝ: both sides are the double sum of `a j * f j k * w k`, summed over `k` outside and
    `j` inside on the left, the other way round on the right. -/
theorem assoc_real {J K : Type*} [Fintype J] [Fintype K] (a : J → ℝ) (f : J → K → ℝ) (w : K → ℝ) :
    ∑ k, (∑ j, a j * f j k) * w k = ∑ j, a j * ∑ k, f j k * w k := by
  simp only [Finset.sum_mul, Finset.mul_sum]
  rw [Finset.sum_comm]
  exact Finset.sum_congr rfl fun j _ => Finset.sum_congr rfl fun k _ => mul_assoc _ _ _

/-- The law on the extended reals, for real entries: name the real behind each entry, pull the coercion out of every
    product and every sum, and conclude in ℝ. -/
theorem assoc_of_real {J K : Type*} [Fintype J] [Fintype K] (a : J → EReal) (f : J → K → EReal) (w : K → EReal)
    (ha : ∀ j, ∃ r : ℝ, a j = r) (hf : ∀ j k, ∃ r : ℝ, f j k = r) (hw : ∀ k, ∃ r : ℝ, w k = r) :
    ∑ k, (∑ j, a j * f j k) * w k = ∑ j, a j * ∑ k, f j k * w k := by
  choose a' ha' using ha
  choose f' hf' using hf
  choose w' hw' using hw
  simp only [ha', hf', hw', ← EReal.coe_mul, ← coe_sum]
  exact congrArg _ (assoc_real a' f' w')

end Cert.AssocReal
-- ==== Proof.TripleProduct.lean ====
/-
  The result as ONE function of the three argument arrays, index by index, in the two forms the programs compute.

  With `adj : [4096, 4096]`, `feat : [4096, 64]`, `w : [64, 64]` the output entry at row `r`, column `c` is

      kernel form     ∑ k < 64,   (∑ j < 4096, adj[r, j] * feat[j, k]) * w[k, c]       — (adj · feat) · w, a row block at a time
      reference form  ∑ j < 4096, adj[r, j] * (∑ k < 64, feat[j, k] * w[k, c])         — adj · (feat · w)

  The two are the two bracketings of a triple matrix product. They agree when every entry is a real number (the law
  of Proof/AssocReal.lean, at the row `adj[r, ·]`, the matrix `feat` and the column `w[·, c]`).
-/
import Idealize.ShloMosaic.PureOps.Ideal
import Idealize.ShloMosaic.Lib.ValueIdx
import proofs.«142434_g35287451304912_cont_sun_m_1242_17_alg».proof.Proof.AssocReal

noncomputable section

namespace Cert.TripleProduct

open Idealize.ShloMosaic Idealize.ShloMosaic.ValueIdx

/-- `(adj · feat) · w` at an output index: the inner sum runs over the 4096 nodes, the outer over the 64 features. -/
def kernelForm (feat : FVec Ideal ⟨2, ![4096, 64]⟩ .f32) (adj : FVec Ideal ⟨2, ![4096, 4096]⟩ .f32)
    (w : FVec Ideal ⟨2, ![64, 64]⟩ .f32) : FVec Ideal ⟨2, ![4096, 64]⟩ .f32 :=
  fun i => ∑ k : Fin 64, (∑ j : Fin 4096, adj (ix2 (i 0) j) * feat (ix2 j k)) * w (ix2 k (i 1))

/-- `adj · (feat · w)` at an output index: the inner sum runs over the 64 features, the outer over the 4096 nodes. -/
def referenceForm (feat : FVec Ideal ⟨2, ![4096, 64]⟩ .f32) (adj : FVec Ideal ⟨2, ![4096, 4096]⟩ .f32)
    (w : FVec Ideal ⟨2, ![64, 64]⟩ .f32) : FVec Ideal ⟨2, ![4096, 64]⟩ .f32 :=
  fun i => ∑ j : Fin 4096, adj (ix2 (i 0) j) * ∑ k : Fin 64, feat (ix2 j k) * w (ix2 k (i 1))

/-- For real entries the two bracketings are one function. -/
theorem kernelForm_eq_referenceForm (feat : FVec Ideal ⟨2, ![4096, 64]⟩ .f32) (adj : FVec Ideal ⟨2, ![4096, 4096]⟩ .f32)
    (w : FVec Ideal ⟨2, ![64, 64]⟩ .f32) (hfeat : ∀ i, ∃ r : ℝ, feat i = r) (hadj : ∀ i, ∃ r : ℝ, adj i = r)
    (hw : ∀ i, ∃ r : ℝ, w i = r) : kernelForm feat adj w = referenceForm feat adj w :=
  funext fun i => Cert.AssocReal.assoc_of_real (fun j : Fin 4096 => adj (ix2 (i 0) j)) (fun (j : Fin 4096) (k : Fin 64) => feat (ix2 j k))
    (fun k : Fin 64 => w (ix2 k (i 1))) (fun j => hadj _) (fun j k => hfeat _) (fun k => hw _)

end Cert.TripleProduct

end
-- ==== Proof.KernelPayload.lean ====
/-
  The kernel's payload, read at an index: one grid point computes the kernel form of the triple product on its rows.

  The body loads the point's 512 rows of `adj` (a [512, 4096] block), all of `feat` and all of `w`, multiplies the block by
  `feat` into a zero accumulator ([512, 64]), multiplies that by `w` into a zero accumulator, and stores the result. At the
  ideal instance a matrix product into the zero splat, read at an output index, is the plain sum over the contracted axis
  of the operands' products: the left operand at (row, k), the right at (k, column). So the stored value at (p, q) is
  `∑ k < 64, (∑ j < 4096, blk[p, j] * feat[j, k]) * w[k, q]`.
-/
import proofs.«142434_g35287451304912_cont_sun_m_1242_17_alg».proof.Proof.Gen.KernelIdeal.Skeleton
import Idealize.ShloMosaic.PureOps.Ideal.Laws
import Idealize.ShloMosaic.Lib.ValueIdx

noncomputable section

namespace Cert.KernelPayload

open Cert.KernelIdeal Cert.KernelIdeal.Gen Idealize.ShloMosaic Idealize.ShloMosaic.ValueIdx

/-! ## The first product: the row block of `adj` times `feat`, contracted over the 4096 nodes -/

theorem lhs_blockfeat_0 (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem lhs_blockfeat_1 (i : S512x64.Idx) (q : dot_S512x4096_S4096x64_S512x64_1_0_0_1_n_n.contr.Idx) :
    (dot_S512x4096_S4096x64_S512x64_1_0_0_1_n_n.lhsIdx i q 1).val = (q ⟨0, by decide⟩).val :=
  dot_S512x4096_S4096x64_S512x64_1_0_0_1_n_n.lhsIdx_val_of_single rfl i q
theorem rhs_blockfeat_0 (i : S512x64.Idx) (q : dot_S512x4096_S4096x64_S512x64_1_0_0_1_n_n.contr.Idx) :
    (dot_S512x4096_S4096x64_S512x64_1_0_0_1_n_n.rhsIdx i q 0).val = (q ⟨0, by decide⟩).val :=
  dot_S512x4096_S4096x64_S512x64_1_0_0_1_n_n.rhsIdx_val_of_single rfl i q
theorem rhs_blockfeat_1 (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- The block times `feat` into the zero accumulator, at (p, k): the sum over the nodes `j` of `blk[p, j] * feat[j, k]`. -/
theorem blockfeat_apply (blk : FVec Ideal S512x4096 .f32) (feat : FVec Ideal S4096x64 .f32) (i : S512x64.Idx) :
    matmul dot_S512x4096_S4096x64_S512x64_1_0_0_1_n_n none blk feat (constant S512x64 .f32 0x00000000#32) i
      = ∑ j : Fin 4096, blk (ix2 (i 0) j) * feat (ix2 j (i 1)) := by
  simp only [matmul]
  rw [Ideal.matmul_constant_zero_apply, ← Equiv.sum_comp (ValueIdx.contrEquiv1 dot_S512x4096_S4096x64_S512x64_1_0_0_1_n_n 4096 rfl rfl).symm]
  refine Finset.sum_congr rfl fun k _ => ?_
  have hk := ValueIdx.contrEquiv1_symm_val dot_S512x4096_S4096x64_S512x64_1_0_0_1_n_n 4096 rfl rfl k
  have el : dot_S512x4096_S4096x64_S512x64_1_0_0_1_n_n.lhsIdx i ((ValueIdx.contrEquiv1 dot_S512x4096_S4096x64_S512x64_1_0_0_1_n_n 4096 rfl rfl).symm k) = ix2 (i 0) k := funext fun a => Fin.ext (by
    match a with
    | ⟨0, _⟩ => exact lhs_blockfeat_0 _ _
    | ⟨1, _⟩ => exact (lhs_blockfeat_1 _ _).trans hk)
  have er : dot_S512x4096_S4096x64_S512x64_1_0_0_1_n_n.rhsIdx i ((ValueIdx.contrEquiv1 dot_S512x4096_S4096x64_S512x64_1_0_0_1_n_n 4096 rfl rfl).symm k) = ix2 k (i 1) := funext fun a => Fin.ext (by
    match a with
    | ⟨0, _⟩ => exact (rhs_blockfeat_0 _ _).trans hk
    | ⟨1, _⟩ => exact rhs_blockfeat_1 _ _)
  rw [el, er]
  rfl

/-! ## The second product: that [512, 64] value times `w`, contracted over the 64 features -/

theorem lhs_timesw_0 (i : S512x64.Idx) (q : dot_S512x64_S64x64_S512x64_1_0_0_1_n_n.contr.Idx) :
    (dot_S512x64_S64x64_S512x64_1_0_0_1_n_n.lhsIdx i q 0).val = (i 0).val := by
  unfold DotDims.lhsIdx
  rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
  rfl
theorem lhs_timesw_1 (i : S512x64.Idx) (q : dot_S512x64_S64x64_S512x64_1_0_0_1_n_n.contr.Idx) :
    (dot_S512x64_S64x64_S512x64_1_0_0_1_n_n.lhsIdx i q 1).val = (q ⟨0, by decide⟩).val :=
  dot_S512x64_S64x64_S512x64_1_0_0_1_n_n.lhsIdx_val_of_single rfl i q
theorem rhs_timesw_0 (i : S512x64.Idx) (q : dot_S512x64_S64x64_S512x64_1_0_0_1_n_n.contr.Idx) :
    (dot_S512x64_S64x64_S512x64_1_0_0_1_n_n.rhsIdx i q 0).val = (q ⟨0, by decide⟩).val :=
  dot_S512x64_S64x64_S512x64_1_0_0_1_n_n.rhsIdx_val_of_single rfl i q
theorem rhs_timesw_1 (i : S512x64.Idx) (q : dot_S512x64_S64x64_S512x64_1_0_0_1_n_n.contr.Idx) :
    (dot_S512x64_S64x64_S512x64_1_0_0_1_n_n.rhsIdx i q 1).val = (i 1).val := by
  unfold DotDims.rhsIdx
  rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
  rfl

/-- A [512, 64] value times `w` into the zero accumulator, at (p, q): the sum over the features `k` of `y[p, k] * w[k, q]`. -/
theorem timesw_apply (y : FVec Ideal S512x64 .f32) (w : FVec Ideal S64x64 .f32) (i : S512x64.Idx) :
    matmul dot_S512x64_S64x64_S512x64_1_0_0_1_n_n none y w (constant S512x64 .f32 0x00000000#32) i
      = ∑ k : Fin 64, y (ix2 (i 0) k) * w (ix2 k (i 1)) := by
  simp only [matmul]
  rw [Ideal.matmul_constant_zero_apply, ← Equiv.sum_comp (ValueIdx.contrEquiv1 dot_S512x64_S64x64_S512x64_1_0_0_1_n_n 64 rfl rfl).symm]
  refine Finset.sum_congr rfl fun k _ => ?_
  have hk := ValueIdx.contrEquiv1_symm_val dot_S512x64_S64x64_S512x64_1_0_0_1_n_n 64 rfl rfl k
  have el : dot_S512x64_S64x64_S512x64_1_0_0_1_n_n.lhsIdx i ((ValueIdx.contrEquiv1 dot_S512x64_S64x64_S512x64_1_0_0_1_n_n 64 rfl rfl).symm k) = ix2 (i 0) k := funext fun a => Fin.ext (by
    match a with
    | ⟨0, _⟩ => exact lhs_timesw_0 _ _
    | ⟨1, _⟩ => exact (lhs_timesw_1 _ _).trans hk)
  have er : dot_S512x64_S64x64_S512x64_1_0_0_1_n_n.rhsIdx i ((ValueIdx.contrEquiv1 dot_S512x64_S64x64_S512x64_1_0_0_1_n_n 64 rfl rfl).symm k) = ix2 k (i 1) := funext fun a => Fin.ext (by
    match a with
    | ⟨0, _⟩ => exact (rhs_timesw_0 _ _).trans hk
    | ⟨1, _⟩ => exact rhs_timesw_1 _ _)
  rw [el, er]
  rfl

/-! ## The stored value -/

/-- What one grid point stores, at row `p` of its block and column `q`: `∑ k, (∑ j, blk[p, j] * feat[j, k]) * w[k, q]`. -/
theorem payload_apply (blk : Vec Ideal S512x4096 .f32) (feat : Vec Ideal S4096x64 .f32) (w : Vec Ideal S64x64 .f32)
    (p : Fin 512) (q : Fin 64) :
    k0_pay1 (F := Ideal) blk feat w (ix2 p q)
      = ∑ k : Fin 64, (∑ j : Fin 4096, blk (ix2 p j) * feat (ix2 j k)) * w (ix2 k q) := by
  unfold k0_pay1
  refine (timesw_apply _ w (ix2 p q)).trans ?_
  refine Finset.sum_congr rfl fun k _ => ?_
  exact congrArg (· * w (ix2 k q)) (blockfeat_apply blk feat (ix2 p k))

end Cert.KernelPayload

end
-- ==== Proof.KernelArray.lean ====
/-
  From the blocks to the array: after the run the kernel's output array is the kernel form of the triple product.

  The grid has 8 points. Point `t` stages all of `feat` and all of `w` (their one block sits at block index (0, 0) at
  every point), rows `512 t … 512 t + 511` of `adj` (block index (t, 0) of [512, 4096] blocks) and writes back rows
  `512 t … 512 t + 511` of the output (block index (t, 0) of [512, 64] blocks). What it writes at row `p` of its block,
  column `q`, is the payload `∑ k, (∑ j, blk[p, j] * feat[j, k]) * w[k, q]` with `blk[p, j] = adj[512 t + p, j]`:
  the kernel form at the array index (512 t + p, q). The 8 blocks of 512 rows cover the 4096 rows (row `r` lies in the block
  of point `r / 512`), so the whole array is the kernel form.
-/
import proofs.«142434_g35287451304912_cont_sun_m_1242_17_alg».proof.Proof.Gen.KernelIdeal.Value
import proofs.«142434_g35287451304912_cont_sun_m_1242_17_alg».proof.Proof.KernelPayload
import proofs.«142434_g35287451304912_cont_sun_m_1242_17_alg».proof.Proof.TripleProduct

set_option maxRecDepth 16384

noncomputable section

namespace Cert.KernelArray

open Cert.KernelIdeal Cert.KernelIdeal.Gen Idealize.ShloMosaic Idealize.ShloMosaic.TcCoe Idealize.SL.Sem
open Idealize.ShloMosaic.ValueIdx
open Idealize.ShloMosaic.Pipeline (Dat)
open Cert.TripleProduct

variable (m : (ℓ : Loc nD τ sig) → Buf (Elt Ideal) ℓ) (ρ : Dev nD → PrngReg)

/-- Every load and the one store of the body start at the origin of their buffers. -/
theorem origin : (![0, 0] : Fin 2 → Nat) = fun _ => 0 := funext fun a => by fin_cases a <;> rfl

/-- The printed index maps over the 8 grid points: `feat`'s and `w`'s windows stay at block (0, 0); `adj`'s window is at
    the output's row block, column block 0; the output's window is at row block `t`, column block 0. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) = t.val ∧ win0_3.index t (1 : Fin 2) = 0 :=
  (by decide +kernel : ∀ t : Fin grid0.N, _)

/-- One point's stored value at (p, q) is the kernel form at the array index `i`, when the point's `feat` and `w` blocks
    are the whole arrays, row `p` of its `adj` block is row `i₀` of `adj`, and `q` is `i₁`. -/
theorem point_value (feat : Vec Ideal S4096x64 .f32) (adj : Vec Ideal S4096x4096 .f32) (w : Vec Ideal S64x64 .f32)
    (fb : Vec Ideal S4096x64 .f32) (wb : Vec Ideal S64x64 .f32) (ab : Vec Ideal S512x4096 .f32)
    (i : S4096x64.Idx) (p : Fin 512) (q : Fin 64)
    (hf : ∀ y, fb y = feat y) (hw : ∀ y, wb y = w y) (ha : ∀ j : Fin 4096, ab (ix2 p j) = adj (ix2 (i 0) j)) (hq : q = i 1) :
    k0_pay1 (F := Ideal) ab fb wb (ix2 p q) = kernelForm feat adj w i := by
  rw [Cert.KernelPayload.payload_apply]
  unfold kernelForm
  refine Finset.sum_congr rfl fun k _ => ?_
  rw [hw, hq]
  refine congrArg (· * w (ix2 k (i 1))) ?_
  refine Finset.sum_congr rfl fun j _ => ?_
  rw [ha, hf]

/-- WHAT POINT `t` WRITES BACK is block `t` of the kernel form of the argument arrays as the region finds them. -/
theorem flushed_eq (c : Dev nD) (t : Fin cfg0.N) :
    (dats m 0 c).flushed 3 t
      = ((cfg0.win 3).blk t).view.read (Elt Ideal) (kernelForm (V m c main_arg0) (V m c main_arg1) (V m c main_arg2)) := by
  rw [Cert.KernelIdeal.Value.flushed3]
  unfold out0_3
  rw [View.canon_unit_zero origin]
  simp only [View.ld_unit_zero (S := S512x4096) origin, View.ld_unit_zero (S := S4096x64) origin, View.ld_unit_zero (S := S64x64) origin]
  obtain ⟨e00, e01, e10, e11, e20, e21, e30, e31⟩ := index_facts t
  funext y
  obtain ⟨p, q, rfl⟩ : ∃ (p : Fin 512) (q : Fin 64), y = ix2 p q := ⟨y 0, y 1, eq_ix2 y⟩
  show k0_pay1 (F := Ideal) (iblk m c 2 t) (iblk m c 0 t) (iblk m c 1 t) (ix2 p q)
    = kernelForm (V m c main_arg0) (V m c main_arg1) (V m c main_arg2) (((cfg0.win 3).blk t).view.emb (ix2 p q))
  refine point_value (V m c main_arg0) (V m c main_arg1) (V m c main_arg2) (iblk m c 0 t) (iblk m c 1 t) (iblk m c 2 t)
    (((cfg0.win 3).blk t).view.emb (ix2 p q)) p q ?_ ?_ ?_ ?_
  · intro y
    show V m c main_arg0 (((cfg0.win 0).blk t).view.emb y) = V m c main_arg0 y
    refine congrArg _ (funext fun a => Fin.ext ?_)
    match a with
    | ⟨0, _⟩ => show win0_0.index t (0 : Fin 2) * 4096 + 1 * (y 0).val = (y 0).val; omega
    | ⟨1, _⟩ => show win0_0.index t (1 : Fin 2) * 64 + 1 * (y 1).val = (y 1).val; omega
  · intro y
    show V m c main_arg2 (((cfg0.win 1).blk t).view.emb y) = V m c main_arg2 y
    refine congrArg _ (funext fun a => Fin.ext ?_)
    match a with
    | ⟨0, _⟩ => show win0_1.index t (0 : Fin 2) * 64 + 1 * (y 0).val = (y 0).val; omega
    | ⟨1, _⟩ => show win0_1.index t (1 : Fin 2) * 64 + 1 * (y 1).val = (y 1).val; omega
  · intro j
    show V m c main_arg1 (((cfg0.win 2).blk t).view.emb (ix2 p j))
      = V m c main_arg1 (ix2 ((((cfg0.win 3).blk t).view.emb (ix2 p q)) 0) j)
    refine congrArg _ (funext fun a => Fin.ext ?_)
    match a with
    | ⟨0, _⟩ => show win0_2.index t (0 : Fin 2) * 512 + 1 * p.val = win0_3.index t (0 : Fin 2) * 512 + 1 * p.val; omega
    | ⟨1, _⟩ => show win0_2.index t (1 : Fin 2) * 4096 + 1 * j.val = j.val; omega
  · refine Fin.ext ?_
    show q.val = win0_3.index t (1 : Fin 2) * 64 + 1 * q.val
    omega

/-- An index of the output array is in point `t`'s block iff each coordinate is in the block's range on its axis. -/
theorem mem_block (t : Fin cfg0.N) (i : S4096x64.Idx) :
    i ∈ ((cfg0.win 3).blk t).view.set
      ↔ ∀ a : Fin 2, win0_3.index t a * S512x64.size a ≤ (i a).val ∧ (i a).val < win0_3.index t a * S512x64.size a + S512x64.size a := by
  show i ∈ ((View.whole main_v0).slice (win0_3.rect t)).set ↔ _
  rw [View.set_slice_whole, Rect.mem_set_unit]
  exact Iff.rfl

/-- The 8 row blocks cover the array: row `r` lies in the block of point `r / 512`. -/
theorem cover (i : S4096x64.Idx) : ∃ t : Fin cfg0.N, (cfg0.win 3).flush t = true ∧ i ∈ ((cfg0.win 3).blk t).view.set := by
  have hi0 : (i 0).val < 4096 := (i 0).isLt
  have hi1 : (i 1).val < 64 := (i 1).isLt
  have ht : (i 0).val / 512 < cfg0.N := by show (i 0).val / 512 < 8; omega
  obtain ⟨-, -, -, -, -, -, e30, e31⟩ := index_facts ⟨(i 0).val / 512, ht⟩
  have e30' : win0_3.index ⟨(i 0).val / 512, ht⟩ (0 : Fin 2) = (i 0).val / 512 := e30
  refine ⟨⟨(i 0).val / 512, ht⟩, flush0_3 _, ?_⟩
  rw [mem_block]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    omega
  | ⟨1, _⟩ =>
    show win0_3.index ⟨(i 0).val / 512, ht⟩ (1 : Fin 2) * 64 ≤ (i 1).val
      ∧ (i 1).val < win0_3.index ⟨(i 0).val / 512, ht⟩ (1 : Fin 2) * 64 + 64
    omega

/-- THE ARRAY after the run is the kernel form of the argument arrays. -/
theorem final (c : Dev nD) :
    (dats m 0 c).arrAt 3 cfg0.N
      = kernelForm (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run, read: the result array ends at the kernel form of the arguments, the arguments unchanged. -/
theorem run : θ_run defs (onTc (τ := τ) (main (F := Ideal))) ⟨m, fun _ => 0, ρ⟩ fun r => ∀ c : Dev nD,
      r.2.mem ((c : Thread nD τ).loc main_v0)
        = kernelForm (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelArray

end
-- ==== Proof.ReferenceAt.lean ====
/-
  The reference, read at an index: its result is the reference form of the triple product.

  The reference is two host products in a row: first `feat · w` ([4096, 64] by [64, 64]), then `adj` times that
  ([4096, 4096] by [4096, 64]). At the ideal instance each product read at an output index is the plain sum over its one
  contracted axis of the operands' products, the left operand at (row, k), the right at (k, column). Composing the two
  readings at the output index `i` gives `∑ j, adj[i₀, j] * ∑ k, feat[j, k] * w[k, i₁]`.
-/
import proofs.«142434_g35287451304912_cont_sun_m_1242_17_alg».proof.Proof.Gen.ReferenceIdeal.Read
import proofs.«142434_g35287451304912_cont_sun_m_1242_17_alg».proof.Proof.TripleProduct

noncomputable section

namespace Cert.ReferenceAt

open Cert.ReferenceIdeal Cert.ReferenceIdeal.Read Idealize.ShloMosaic Idealize.ShloMosaic.ValueIdx

/-- The second product's left operand index at contraction coordinate `j`: row `i₀` of `adj`, column `j`. -/
theorem adj_idx (i : S4096x64.Idx) (j : Fin 4096) : lidx_main_v1 i j = ix2 (i 0) j :=
  funext fun a => Fin.ext (by match a with | ⟨0, _⟩ => rfl | ⟨1, _⟩ => rfl)

/-- The first product's left operand index, under the second product's right operand index: `feat` at (j, k). -/
theorem feat_idx (i : S4096x64.Idx) (j : Fin 4096) (k : Fin 64) : lidx_main_v0 (ridx_main_v1 i j) k = ix2 j k :=
  funext fun a => Fin.ext (by match a with | ⟨0, _⟩ => rfl | ⟨1, _⟩ => rfl)

/-- The first product's right operand index, under the second product's right operand index: `w` at (k, i₁). -/
theorem w_idx (i : S4096x64.Idx) (j : Fin 4096) (k : Fin 64) : ridx_main_v0 (ridx_main_v1 i j) k = ix2 k (i 1) :=
  funext fun a => Fin.ext (by match a with | ⟨0, _⟩ => rfl | ⟨1, _⟩ => rfl)

/-- The reference's result stage is `adj · (feat · w)`, index by index. -/
theorem stage_eq_referenceForm (x0 : (⟨S4096x64, .f32⟩ : BufTy).Contents (Elt Ideal)) (x1 : (⟨S4096x4096, .f32⟩ : BufTy).Contents (Elt Ideal))
    (x2 : (⟨S64x64, .f32⟩ : BufTy).Contents (Elt Ideal)) :
    val_main_v1 (F := Ideal) x0 x1 x2 = Cert.TripleProduct.referenceForm x0 x1 x2 := by
  funext i
  rw [val_main_v1_apply]
  unfold Cert.TripleProduct.referenceForm
  refine Finset.sum_congr rfl fun j _ => ?_
  rw [val_main_v0_apply, adj_idx]
  simp only [feat_idx, w_idx]
  rfl

end Cert.ReferenceAt

end
-- ==== Proof.lean ====
/-
  The certificate of a fused graph-aggregation kernel against its jnp reference, over the extended reals.

  The reference computes `emb = adj · (feat · w)` with `adj : [4096, 4096]`, `feat : [4096, 64]`, `w : [64, 64]`: first the
  small product `feat · w`, then the aggregation by `adj`. The kernel walks the rows of `adj` in 8 blocks of 512 and
  computes, per block, `(adj_block · feat) · w`: the other bracketing of the same triple product, chosen so that every
  grid point is independent of the others.

  At the ideal instance every matrix product is the exact sum over its contracted axis (a product into a zero accumulator on
  the kernel's side, the host's `dot_general` on the reference's), so the claim is the associativity of the matrix product,

      ∑ k, (∑ j, adj[r, j] * feat[j, k]) * w[k, c]  =  ∑ j, adj[r, j] * (∑ k, feat[j, k] * w[k, c]).

  On the extended reals this law needs distributivity, which can fail at infinities, so the precondition is USED: under it
  every entry of the three arrays is a real number (Proof/FiniteInputs.lean), the products and sums stay real, and in ℝ the
  two sides are one double sum taken in two orders (Proof/AssocReal.lean, Proof/TripleProduct.lean).

  The pieces: Proof/KernelPayload.lean reads what one grid point stores, at an index; Proof/KernelArray.lean carries the
  points' blocks to the whole output array (the kernel form of the triple product); Proof/ReferenceAt.lean reads the
  reference's two products at an index (the reference form). The idealization rewrote nothing, so `preserves` is trivial,
  and the three frames are the programs' runs with the results dropped.
-/
import proofs.«142434_g35287451304912_cont_sun_m_1242_17_alg».proof.Defs
import proofs.«142434_g35287451304912_cont_sun_m_1242_17_alg».proof.Proof.Gen.Kernel
import proofs.«142434_g35287451304912_cont_sun_m_1242_17_alg».proof.Proof.Gen.Kernel.Frame
import proofs.«142434_g35287451304912_cont_sun_m_1242_17_alg».proof.Proof.Gen.KernelIdeal
import proofs.«142434_g35287451304912_cont_sun_m_1242_17_alg».proof.Proof.Gen.KernelIdeal.Frame
import proofs.«142434_g35287451304912_cont_sun_m_1242_17_alg».proof.Proof.Gen.KernelIdeal.Value
import proofs.«142434_g35287451304912_cont_sun_m_1242_17_alg».proof.Proof.Gen.ReferenceIdeal
import proofs.«142434_g35287451304912_cont_sun_m_1242_17_alg».proof.Proof.Gen.ReferenceIdeal.Run
import proofs.«142434_g35287451304912_cont_sun_m_1242_17_alg».proof.Proof.Gen.ReferenceIdeal.Read
import proofs.«142434_g35287451304912_cont_sun_m_1242_17_alg».proof.Proof.Gen.Pre_finite_inputs
import proofs.«142434_g35287451304912_cont_sun_m_1242_17_alg».proof.Proof.FiniteInputs
import proofs.«142434_g35287451304912_cont_sun_m_1242_17_alg».proof.Proof.TripleProduct
import proofs.«142434_g35287451304912_cont_sun_m_1242_17_alg».proof.Proof.KernelArray
import proofs.«142434_g35287451304912_cont_sun_m_1242_17_alg».proof.Proof.ReferenceAt
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is two host products in a row: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the three arguments, the kernel ends at `(adj · feat) · w` and the reference at
    `adj · (feat · w)`; the entries being real under the precondition, these are one array. -/
theorem algebraic : Cert.algebraic_KernelIdeal_ReferenceIdeal := by
  intro m ρ m' ρ' hpre hagree
  refine ⟨fun c => Cert.TripleProduct.kernelForm
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨hfeat, hadj, hw⟩ := Cert.FiniteInputs.real_of_pre _ _ _ (hpre c)
  rw [(hagree c).1, (hagree c).2.1, (hagree c).2.2, Cert.ReferenceIdeal.Read.val_main_v1_eq,
    Cert.ReferenceAt.stage_eq_referenceForm]
  exact (Cert.TripleProduct.kernelForm_eq_referenceForm _ _ _ hfeat hadj hw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
